-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50257 : Shape := ⟨2, ![2048, 50257]⟩
abbrev S_ : Shape := ⟨0, ![]⟩

class Facts : Prop where
  bcast_S_S2048x50257 : S_.BroadcastsInDim S2048x50257 (![] : Fin 0 → Fin S2048x50257.rank)
  reducesTo_S2048x50257_S_d0_1 : S2048x50257.ReducesTo [0, 1] S_
  h_S_ : 0 < S_.numel

variable [Facts]

def fn {F : FTy → Type} [FloatOps F] (main_arg0 : FVec F S2048x50257 .f32) (main_arg1 : FVec F S2048x50257 .f32) : IVec S_ 1 :=
  let main_v0 : FVec F S2048x50257 .f32 := Host.absf main_arg0
  let main_cst : FVec F S_ .f32 := constant S_ .f32 0x7F800000#32
  let main_v1 : FVec F S2048x50257 .f32 := broadcastInDim S2048x50257 ![] bcast_S_S2048x50257 main_cst
  let main_v2 : IVec S2048x50257 1 := cmpf .olt main_v0 main_v1
  let main_c : IVec S_ 1 := constantI S_ 1 1#1
  let main_v3 : IVec S_ 1 := (fun x v => Host.reduce IntOp.andi x v reducesTo_S2048x50257_S_d0_1 h_S_) main_v2 main_c
  let main_v4 : FVec F S2048x50257 .f32 := Host.absf main_arg1
  let main_cst_0 : FVec F S_ .f32 := constant S_ .f32 0x7F800000#32
  let main_v5 : FVec F S2048x50257 .f32 := broadcastInDim S2048x50257 ![] bcast_S_S2048x50257 main_cst_0
  let main_v6 : IVec S2048x50257 1 := cmpf .olt main_v4 main_v5
  let main_c_1 : IVec S_ 1 := constantI S_ 1 1#1
  let main_v7 : IVec S_ 1 := (fun x v => Host.reduce IntOp.andi x v reducesTo_S2048x50257_S_d0_1 h_S_) main_v6 main_c_1
  let main_v8 : IVec S_ 1 := andi main_v3 main_v7
  main_v8
-- ==== Kernel.lean ====
abbrev S2048x50257 : Shape := ⟨2, ![2048, 50257]⟩
abbrev S2048x1 : Shape := ⟨2, ![2048, 1]⟩
abbrev S16x50257 : Shape := ⟨2, ![16, 50257]⟩
abbrev S16x1 : Shape := ⟨2, ![16, 1]⟩
abbrev S16 : Shape := ⟨1, ![16]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S2048x50257, .f32⟩
  | .hbm, ⟨1, _⟩ => ⟨S2048x50257, .f32⟩
  | .hbm, ⟨2, _⟩ => ⟨S2048x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S16x50257, .f32⟩
  | .local _ .vmem, ⟨1, _⟩ => ⟨S16x50257, .f32⟩
  | .local _ .vmem, ⟨2, _⟩ => ⟨S16x50257, .f32⟩
  | .local _ .vmem, ⟨3, _⟩ => ⟨S16x50257, .f32⟩
  | .local _ .vmem, ⟨4, _⟩ => ⟨S16x1, .f32⟩
  | .local _ .vmem, ⟨5, _⟩ => ⟨S16x1, .f32⟩
  | _, _ => ⟨S2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x50257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x50257_S16x50257_0_0 : ∀ a, (![0, 0] : Fin 2 → Nat) a + S16x50257.size a ≤ S16x50257.size a
  h_S16x50257 : 0 < S16x50257.numel
  reduces_S16x50257_S16 : S16x50257.Reduces [1] S16
  shapeCasts_S16_S16x1 : S16.ShapeCasts S16x1
  broadcasts_S16x1_S16x50257 : S16x1.Broadcasts S16x50257
  inb_S16x1_S16x1_0_0 : ∀ a, (![0, 0] : Fin 2 → Nat) a + S16x1.size a ≤ S16x1.size a
  h_S16x1 : 0 < S16x1.numel
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x50257.size a ≤ S2048x50257.size a
  hwx0_0 : ∀ i : grid0.Coords, EltTy.bits .f32 = 32 ∨ (Rect.block (s := S2048x50257) S16x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x50257.size a ≤ S2048x50257.size a
  hwx0_1 : ∀ i : grid0.Coords, EltTy.bits .f32 = 32 ∨ (Rect.block (s := S2048x50257) S16x50257.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S2048x1.size a
  hwx0_2 : ∀ i : grid0.Coords, EltTy.bits .f32 = 32 ∨ (Rect.block (s := S2048x1) S16x1.size (cc0_transform_2 i) (hinb0_2 i)).WholeWords (EltTy.packing .f32)

variable [Facts₀]

abbrev win0_0 : Pipeline.Window sig grid0 :=
  Pipeline.Window.ofSpec (Memref.whole main_arg0) S16x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x50257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x50257 : Shape := ⟨2, ![2048, 50257]⟩
abbrev S_ : Shape := ⟨0, ![]⟩
abbrev S2048 : Shape := ⟨1, ![2048]⟩
abbrev S2048x1 : Shape := ⟨2, ![2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2048x50257, .f32⟩
  | .hbm, ⟨1, _⟩ => ⟨S2048x50257, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x1, .f32⟩
  | .hbm, ⟨8, _⟩ => ⟨S2048x50257, .f32⟩
  | .hbm, ⟨9, _⟩ => ⟨S2048x50257, .f32⟩
  | .hbm, ⟨10, _⟩ => ⟨S2048x50257, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x50257, .f32⟩
  | .hbm, ⟨15, _⟩ => ⟨S2048x50257, .f32⟩
  | .hbm, ⟨16, _⟩ => ⟨S_, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048x1, .f32⟩
  | .hbm, ⟨22, _⟩ => ⟨S2048x50257, .f32⟩
  | .hbm, ⟨23, _⟩ => ⟨S2048x50257, .f32⟩
  | .hbm, ⟨24, _⟩ => ⟨S2048x50257, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S2048x1, .f32⟩
  | .hbm, ⟨29, _⟩ => ⟨S2048x50257, .f32⟩
  | .hbm, ⟨30, _⟩ => ⟨S2048x50257, .f32⟩
  | .hbm, ⟨31, _⟩ => ⟨S2048x50257, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_call0_cst_0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst_1 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩

abbrev nD : Nat := 1
abbrev τ : Topo := Topo.v7x

variable {F : FTy → Type} [FloatOps F]

class Facts₀ : Prop where
  reducesTo_S2048x50257_S2048_d1 : S2048x50257.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x50257_0_1 : S2048x1.BroadcastsInDim S2048x50257 (![0, 1] : Fin 2 → Fin S2048x50257.rank)
  reducesTo_S2048x50257_S_d0_1 : S2048x50257.ReducesTo [0, 1] S_

variable [Facts₀]

class Facts : Prop extends Facts₀ where

variable [Facts]
-- ==== Proof.Finite.lean ====
/-
  The precondition read back: every entry of both arguments is a real number.

  `finite_inputs` says `|x| < +∞` at every entry of each argument (two `jnp.all`s joined by `and`).  On the extended
  reals `|x| = max x (-x)`, which is `+∞` exactly at the two infinities; so an entry that passes the test is neither,
  that is, it is the image of a real.
-/
import proofs.«158883_j14809047236868_1_alg».proof.Pre_finite_inputs
import proofs.«158883_j14809047236868_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Idealize.ShloMosaic.ValueIdx Cert.Pre_finite_inputs

/-- The scalar shape has one index. -/
instance : Subsingleton S_.Idx := ⟨fun a b => funext fun d => d.elim0⟩

/-- The word of `+∞` denotes the top of the extended reals. -/
theorem ofBits_pos_inf : Ideal.ofBits .f32 0x7F800000#32 = (⊤ : EReal) := by
  simp [Ideal.ofBits, Ideal.ieee]

/-- An extended real whose absolute value is below `+∞` is a real. -/
theorem real_of_abs_lt_inf (x : EReal)
    (h : Ideal.cmp .olt (max x (-x)) (Ideal.ofBits .f32 0x7F800000#32) = 1#1) : ∃ r : ℝ, x = r := by
  rw [ofBits_pos_inf] at h
  have hlt : max x (-x) < ⊤ := by
    by_contra hc
    simp [Ideal.cmp, hc] at h
  induction x using EReal.rec with
  | bot => simp at hlt
  | top => simp at hlt
  | coe r => exact ⟨r, rfl⟩

/-- Under `finite_inputs` every entry of each argument is a real. -/
theorem entries_real [Cert.Pre_finite_inputs.Facts] (x y : FVec Ideal S2048x50257 .f32)
    (h : Cert.Pre_finite_inputs.fn (F := Ideal) x y = fun _ => 1#1) :
    (∀ i, ∃ r : ℝ, x i = r) ∧ (∀ i, ∃ r : ℝ, y i = r) := by
  have h0 := congrFun h ix0
  dsimp only [Cert.Pre_finite_inputs.fn] at h0
  obtain ⟨h1, h2⟩ := IntOp.andi_eq_one.mp h0
  exact ⟨fun i => real_of_abs_lt_inf (x i) (Host.reduce_andi_all _ _ _ _ _ h1 i),
    fun i => real_of_abs_lt_inf (y i) (Host.reduce_andi_all _ _ _ _ _ h2 i)⟩

end Cert.FiniteInputs

end
-- ==== Proof.RowLaw.lean ====
/-
  One row of the loss, on the extended reals.

  For a row `a` of logits and a row `b` of targets' logits (both indexed by `Fin n`), write
  `M a` for the row's maximum (the fold of `max` from `-∞`), `e a k = exp (a k - M a)`, `Z a = ∑ k, e a k`.
  The softmax of `a` at `k` is `e a k / Z a` and the log-softmax of `b` at `k` is `(b k - M b) - log (Z b)`.

  The reference sums the products of the two, entry by entry; the kernel computes
  `(∑ k, e a k * (b k - M b)) / Z a - log (Z b)`.  On FINITE rows the two agree: every quantity is then a
  real number, `Z a` is a sum of positive reals, hence a nonzero real, and
  `∑ k, (e k / Z) * (s k - L) = (∑ k, e k * s k) / Z - L * (∑ k, e k) / Z = (∑ k, e k * s k) / Z - L`.
  Finiteness is needed: distributing the product over the difference fails at the infinities.
-/
import Idealize.ShloMosaic.PureOps.Ideal
import Idealize.ShloMosaic.PureOps.Ideal.Laws

noncomputable section

open scoped BigOperators

namespace Cert.RowLoss

open Idealize.ShloMosaic

variable {n : ℕ}

/-- The word of `-∞` denotes the bottom of the extended reals. -/
theorem ofBits_neg_inf : Ideal.ofBits .f32 0xFF800000#32 = (⊥ : EReal) := by
  simp [Ideal.ofBits, Ideal.ieee]

/-- A row's maximum, folded from `-∞`. -/
def rowMax (a : Fin n → EReal) : EReal :=
  (Finset.univ : Finset (Fin n)).fold max (Ideal.ofBits .f32 0xFF800000#32) a

/-- An entry less its row's maximum. -/
def shifted (a : Fin n → EReal) (k : Fin n) : EReal := a k - rowMax a

/-- The exponential of the shifted entry. -/
def expShifted (a : Fin n → EReal) (k : Fin n) : EReal := Ideal.exp (shifted a k)

/-- The row's normaliser: the sum of the shifted exponentials. -/
def normaliser (a : Fin n → EReal) : EReal := ∑ k, expShifted a k

/-- What the kernel computes for a row: the weighted sum of the shifted targets over the normaliser, less the
    logarithm of the targets' normaliser. -/
def kernelRow (a b : Fin n → EReal) : EReal :=
  Ideal.div (∑ k, expShifted a k * shifted b k) (normaliser a) - Ideal.log (normaliser b)

/-- What the reference computes at one entry: the softmax of `a` times the log-softmax of `b`. -/
def refEntry (a b : Fin n → EReal) (k : Fin n) : EReal :=
  Ideal.div (expShifted a k) (normaliser a) * (shifted b k - Ideal.log (normaliser b))

/-- A finite sum of reals, coerced term by term, is the coerced sum. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The maximum of a nonempty row of reals is a real: it is above an entry, so not `-∞`, and below `+∞` as every
    entry is. -/
theorem rowMax_real (hn : 0 < n) (a : Fin n → EReal) (ha : ∀ k, ∃ r : ℝ, a k = r) : ∃ M : ℝ, rowMax a = M := by
  have hlt : rowMax a < ⊤ := by
    unfold rowMax
    rw [Finset.fold_max_lt]
    refine ⟨by rw [ofBits_neg_inf]; exact bot_lt_top, fun k _ => ?_⟩
    obtain ⟨r, hr⟩ := ha k
    rw [hr]; exact EReal.coe_lt_top r
  have hgt : ⊥ < rowMax a := by
    obtain ⟨r, hr⟩ := ha ⟨0, hn⟩
    have hle : a ⟨0, hn⟩ ≤ rowMax a := by
      unfold rowMax
      rw [Finset.le_fold_max]
      exact Or.inr ⟨⟨0, hn⟩, Finset.mem_univ _, le_rfl⟩
    exact lt_of_lt_of_le (by rw [hr]; exact EReal.bot_lt_coe r) hle
  exact ⟨(rowMax a).toReal, (EReal.coe_toReal hlt.ne hgt.ne').symm⟩

/-- THE LAW: on finite rows the reference's entries sum to the kernel's row value. -/
theorem row_law (hn : 0 < n) (a b : Fin n → EReal) (ha : ∀ k, ∃ r : ℝ, a k = r) (hb : ∀ k, ∃ r : ℝ, b k = r) :
    ∑ k, refEntry a b k = kernelRow a b := by
  obtain ⟨M, hM⟩ := rowMax_real hn a ha
  obtain ⟨M', hM'⟩ := rowMax_real hn b hb
  choose a' ha' using ha
  choose b' hb' using hb
  -- the real quantities
  let e : Fin n → ℝ := fun k => Real.exp (a' k - M)
  let s : Fin n → ℝ := fun k => b' k - M'
  let Zr : ℝ := ∑ k, e k
  let Zy : ℝ := ∑ k, Real.exp (s k)
  let L : ℝ := Real.log Zy
  have hZr : 0 < Zr := Finset.sum_pos (fun k _ => Real.exp_pos _) ⟨⟨0, hn⟩, Finset.mem_univ _⟩
  have hZy : 0 < Zy := Finset.sum_pos (fun k _ => Real.exp_pos _) ⟨⟨0, hn⟩, Finset.mem_univ _⟩
  have hs : ∀ k, shifted b k = ((s k : ℝ) : EReal) := fun k => by
    unfold shifted; rw [hb' k, hM', ← EReal.coe_sub]
  have he : ∀ k, expShifted a k = ((e k : ℝ) : EReal) := fun k => by
    unfold expShifted shifted; rw [ha' k, hM, ← EReal.coe_sub, Ideal.exp_coe]
  have hey : ∀ k, expShifted b k = ((Real.exp (s k) : ℝ) : EReal) := fun k => by
    unfold expShifted; rw [hs k, Ideal.exp_coe]
  have hZ : normaliser a = ((Zr : ℝ) : EReal) := by
    unfold normaliser; rw [Finset.sum_congr rfl fun k _ => he k]; exact coe_sum _ _
  have hZ' : normaliser b = ((Zy : ℝ) : EReal) := by
    unfold normaliser; rw [Finset.sum_congr rfl fun k _ => hey k]; exact coe_sum _ _
  have hL : Ideal.log (normaliser b) = ((L : ℝ) : EReal) := by
    rw [hZ', Ideal.log_coe, if_neg (not_le.mpr hZy)]
  have hdiv : ∀ x : ℝ, Ideal.div ((x : ℝ) : EReal) (normaliser a) = ((x * (1 / Zr) : ℝ) : EReal) := fun x => by
    rw [hZ, Ideal.div_coe hZr.ne', ← EReal.coe_mul]
  -- both sides as coerced reals
  have hl : ∑ k, refEntry a b k = (((∑ k, e k * (1 / Zr) * (s k - L) : ℝ)) : EReal) := by
    rw [← coe_sum]
    refine Finset.sum_congr rfl fun k _ => ?_
    unfold refEntry
    rw [he k, hs k, hL, hdiv, ← EReal.coe_sub, ← EReal.coe_mul]
  have hr : kernelRow a b = ((((∑ k, e k * s k) * (1 / Zr) - L : ℝ)) : EReal) := by
    unfold kernelRow
    rw [Finset.sum_congr rfl fun k _ => show expShifted a k * shifted b k = ((e k * s k : ℝ) : EReal) by
      rw [he k, hs k, ← EReal.coe_mul], coe_sum, hdiv, hL, ← EReal.coe_sub]
  rw [hl, hr]
  congr 1
  -- the identity over the reals
  have hsum : (∑ k, e k) * (1 / Zr) = 1 := by
    show Zr * (1 / Zr) = 1
    field_simp
  calc ∑ k, e k * (1 / Zr) * (s k - L)
      = ∑ k, (e k * s k * (1 / Zr) - L * (e k * (1 / Zr))) := Finset.sum_congr rfl fun k _ => by ring
    _ = (∑ k, e k * s k) * (1 / Zr) - L * ((∑ k, e k) * (1 / Zr)) := by
        rw [Finset.sum_sub_distrib, ← Finset.sum_mul, ← Finset.mul_sum, ← Finset.sum_mul]
    _ = (∑ k, e k * s k) * (1 / Zr) - L := by rw [hsum, mul_one]

end Cert.RowLoss

end
-- ==== Proof.KernelRow.lean ====
/-
  The kernel body's stored value, read at an index.

  The body loads a block of 16 rows of each argument and stores a [16, 1] column.  Entry (p, 0) of the column depends on
  row p of the two blocks only: with `a` and `b` those rows it is
  `(∑ k, exp (a k - max a) * (b k - max b)) / (∑ k, exp (a k - max a)) - log (∑ k, exp (b k - max b))`,
  the row value of Proof/RowLaw.lean.  The reductions along the lane axis are sums and folds of `max` over the row's
  coordinates; the keepdims casts and the broadcast back along the lanes only move an entry between (p), (p, 0) and (p, k).
-/
import proofs.«158883_j14809047236868_1_alg».proof.Proof.Gen.KernelIdeal.Skeleton
import proofs.«158883_j14809047236868_1_alg».proof.Proof.RowLaw
import Idealize.ShloMosaic.Lib.ValueIdx
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.RowLoss

/-- The exponential of a vector at an index. -/
theorem exp_at {s : Shape} {φ : FTy} (v : FVec Ideal s φ) (i : s.Idx) : exp v i = Ideal.exp (v i) := rfl
/-- The logarithm of a vector at an index. -/
theorem log_at {s : Shape} {φ : FTy} (v : FVec Ideal s φ) (i : s.Idx) : log v i = Ideal.log (v i) := rfl

/-- Row p of a [16, 50257] vector with coordinate k inserted on the lane axis is the entry (p, k). -/
theorem lift_row (h : S16x50257.Reduces [1] S16) (p : Fin 16) (k : Fin 50257) : h.lift (ix1 p) k = ix2 p k :=
  funext fun a => Fin.ext (by match a with | ⟨0, _⟩ => rfl | ⟨1, _⟩ => rfl)

/-- The maximum along the lanes, at row p: the row's maximum folded from `-∞`. -/
theorem lane_max_at (v : FVec Ideal S16x50257 .f32) (h : S16x50257.Reduces [1] S16) (hφ : FKind.Formats .f32)
    (hacc : (0xFF800000#32 : BitVec 32) = 0xFF800000#32) (p : Fin 16) :
    multiReduction .maximumf [1] S16 v 0xFF800000#32 h hφ hacc (ix1 p) = rowMax (fun k : Fin 50257 => v (ix2 p k)) := by
  refine (Ideal.multiReduction_maximumf_single v _ h hφ hacc (ix1 p)).trans ?_
  have hf : (v ∘ h.lift (ix1 p)) = fun k : Fin 50257 => v (ix2 p k) := funext fun k => congrArg v (lift_row h p k)
  rw [hf]
  rfl

/-- The sum along the lanes, at row p: the sum of the row's entries. -/
theorem lane_sum_at (v : FVec Ideal S16x50257 .f32) (h : S16x50257.Reduces [1] S16) (hφ : FKind.Formats .f32)
    (hacc : (0x00000000#32 : BitVec 32) = 0x00000000#32) (p : Fin 16) :
    multiReduction .add [1] S16 v 0x00000000#32 h hφ hacc (ix1 p) = ∑ k : Fin 50257, v (ix2 p k) := by
  refine (Ideal.multiReduction_add_single v _ h hφ hacc (ix1 p)).trans ?_
  exact Finset.sum_congr rfl fun k _ => congrArg v (lift_row h p k)

/-- The keepdims cast [16] → [16, 1] reads (p, q) at (p). -/
theorem keepdims_at {α : Type} (w : S16.Idx → α) (h : S16.ShapeCasts S16x1) (p : Fin 16) (q : Fin 1) :
    shapeCast S16x1 w h (ix2 p q) = w (ix1 p) :=
  shapeCast_apply w h (ix2 p q) (ix1 p) (by
    rw [Shape.rowMajor_val_one, Shape.rowMajor_val_two]
    show p.val = p.val * 1 + q.val
    have := q.isLt
    omega)

/-- The broadcast of a [16, 1] column along the lanes reads (p, k) at (p, 0). -/
theorem lane_bcast_at {α : Type} (w : S16x1.Idx → α) (h : S16x1.Broadcasts S16x50257) (p : Fin 16) (k : Fin 50257) :
    broadcastTo S16x50257 w h (ix2 p k) = w (ix2 p (0 : Fin 1)) :=
  broadcastTo_apply w h (ix2 p k) (ix2 p (0 : Fin 1)) (fun a => match a with
    | ⟨0, _⟩ => by show p.val = if (16 : Nat) = 1 then 0 else p.val; rw [if_neg (by decide)]
    | ⟨1, _⟩ => by show 0 = if (1 : Nat) = 1 then 0 else k.val; rw [if_pos rfl])

/-- An entry less its row's maximum, the maximum having gone through the keepdims cast and the broadcast back along the
    lanes: at (p, k) it is the entry less the maximum of row p. -/
theorem shift_at (x : FVec Ideal S16x50257 .f32) (h1 : S16x50257.Reduces [1] S16) (hφ : FKind.Formats .f32)
    (hacc : (0xFF800000#32 : BitVec 32) = 0xFF800000#32) (h2 : S16.ShapeCasts S16x1) (h3 : S16x1.Broadcasts S16x50257)
    (p : Fin 16) (k : Fin 50257) :
    subf x (broadcastTo S16x50257 (shapeCast S16x1 (multiReduction .maximumf [1] S16 x 0xFF800000#32 h1 hφ hacc) h2) h3) (ix2 p k)
      = x (ix2 p k) - rowMax (fun k : Fin 50257 => x (ix2 p k)) := by
  show x (ix2 p k) - broadcastTo S16x50257 (shapeCast S16x1 (multiReduction .maximumf [1] S16 x 0xFF800000#32 h1 hφ hacc) h2) h3 (ix2 p k) = _
  exact congrArg (fun z : EReal => x (ix2 p k) - z)
    ((lane_bcast_at _ h3 p k).trans ((keepdims_at _ h2 p 0).trans (lane_max_at x h1 hφ hacc p)))

/-- THE PAYLOAD AT AN INDEX: entry (p, q) of the stored column is the row value of row p of the two loaded blocks. -/
theorem pay_at (x0 x1 : Vec Ideal S16x50257 .f32) (p : Fin 16) (q : Fin 1) :
    k0_pay1 (F := Ideal) x0 x1 (ix2 p q)
      = kernelRow (fun k : Fin 50257 => x0 (ix2 p k)) (fun k : Fin 50257 => x1 (ix2 p k)) := by
  unfold k0_pay1 kernelRow normaliser expShifted shifted
  simp only [subf_apply, divf_apply, log_at, keepdims_at]
  refine congrArg₂ (fun a b : EReal => a - b) (congrArg₂ Ideal.div ?_ ?_) (congrArg Ideal.log ?_)
  · refine (lane_sum_at _ _ _ _ p).trans (Finset.sum_congr rfl fun k _ => ?_)
    exact congrArg₂ (fun a b : EReal => a * b) (congrArg Ideal.exp (shift_at x0 _ _ _ _ _ p k)) (shift_at x1 _ _ _ _ _ p k)
  · refine (lane_sum_at _ _ _ _ p).trans (Finset.sum_congr rfl fun k _ => ?_)
    exact congrArg Ideal.exp (shift_at x0 _ _ _ _ _ p k)
  · refine (lane_sum_at _ _ _ _ p).trans (Finset.sum_congr rfl fun k _ => ?_)
    exact congrArg Ideal.exp (shift_at x1 _ _ _ _ _ p k)

end Cert.KernelIdeal.RowValue

end
-- ==== Proof.KernelValue.lean ====
/-
  The kernel's result, as a function of the two arguments.

  Grid point t loads rows 16 t … 16 t + 15 of both arguments and writes back rows 16 t … 16 t + 15 of a [2048, 1] column:
  entry (r, 0) of the column is the row value (Proof/RowLaw.lean) of row r of the arguments, whatever the point.  The 128
  blocks tile the column, so after the region the column holds the row values of all 2048 rows.  The operations after the
  region sum the column, negate and divide by 2048.
-/
import proofs.«158883_j14809047236868_1_alg».proof.Proof.Gen.KernelIdeal.Frame
import proofs.«158883_j14809047236868_1_alg».proof.Proof.KernelRow
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem Cert.RowLoss Cert.KernelIdeal.RowValue
open Idealize.ShloMosaic.Pipeline (Dat)

variable (m : (ℓ : Loc nD τ sig) → Buf (Elt Ideal) ℓ) (ρ : Dev nD → PrngReg)

/-- The column of row values of two [2048, 50257] arrays: entry (r, 0) is the row value of row r. -/
def rowValues (X Y : S2048x50257.Idx → EReal) : S2048x1.Idx → EReal :=
  fun i => kernelRow (fun k : Fin 50257 => X (ix2 (⟨(i 0).val, idx2_lt0 i⟩ : Fin 2048) k))
    (fun k : Fin 50257 => Y (ix2 (⟨(i 0).val, idx2_lt0 i⟩ : Fin 2048) k))

/-- What the operations after the region make of the column: its sum (from zero), negated, over 2048. -/
def lossOf (col : S2048x1.Idx → EReal) : S_.Idx → EReal :=
  Host.divf (F := Ideal) (Host.negf (F := Ideal) (Host.reduceAdd (F := Ideal) col (constant (F := Ideal) S_ .f32 0x00000000#32)
    reducesTo_S2048x1_S_d0_1 h_S_)) (constant (F := Ideal) S_ .f32 0x45000000#32)

/-- A block of 16 rows that starts at row b: if the two loaded blocks are rows b … b + 15 of X and Y, the stored column at
    (p, q) is the row value of row b + p. -/
theorem block_value (X Y : S2048x50257.Idx → EReal) (x0 x1 : Vec Ideal S16x50257 .f32) (b : ℕ)
    (h0 : ∀ (p : Fin 16) (k : Fin 50257) (r : Fin 2048), r.val = b + p.val → x0 (ix2 p k) = X (ix2 r k))
    (h1 : ∀ (p : Fin 16) (k : Fin 50257) (r : Fin 2048), r.val = b + p.val → x1 (ix2 p k) = Y (ix2 r k))
    (j : S16x1.Idx) (i : S2048x1.Idx) (hi : (i 0).val = b + (j 0).val) :
    k0_pay1 (F := Ideal) x0 x1 j = rowValues X Y i := by
  obtain ⟨p, q, rfl⟩ : ∃ (p : Fin 16) (q : Fin 1), j = ix2 p q := ⟨j 0, j 1, eq_ix2 j⟩
  rw [pay_at]
  have hr : (⟨(i 0).val, idx2_lt0 i⟩ : Fin 2048).val = b + p.val := hi
  exact congrArg₂ kernelRow (funext fun k => h0 p k _ hr) (funext fun k => h1 p k _ hr)

theorem hz : (![0, 0] : Fin 2 → Nat) = fun _ => 0 := funext fun a => by fin_cases a <;> rfl

/-- The printed index maps, decided over the grid: every window's block index at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the column of row values of the arguments as the region finds them. -/
theorem flushed_eq (c : Dev nD) (t : Fin cfg0.N) :
    (dats m 0 c).flushed 2 t
      = ((cfg0.win 2).blk t).view.read (Elt Ideal) (rowValues (V m c main_arg0) (V m c main_arg1)) := by
  show (cfg0.win 2).cut (grid0.coords t) ((dats m 0 c).after 2 t) = _
  rw [after0_2]
  unfold out0_2
  rw [View.canon_unit_zero hz]
  simp only [View.ld_unit_zero (S := S16x50257) hz]
  obtain ⟨e0, e1, e2, e3, e4, e5⟩ := idx_facts t
  funext j
  show k0_pay1 (F := Ideal) (iblk m c 0 t) (iblk m c 1 t) j
    = rowValues (V m c main_arg0) (V m c main_arg1) (((cfg0.win 2).blk t).view.emb j)
  refine block_value (V m c main_arg0) (V m c main_arg1) (iblk m c 0 t) (iblk m c 1 t) (t.val * 16) ?_ ?_ j
    (((cfg0.win 2).blk t).view.emb j) ?_
  · intro p k r hr
    show V m c main_arg0 (((cfg0.win 0).blk t).view.emb (ix2 p k)) = V m c main_arg0 (ix2 r k)
    refine congrArg (V m c main_arg0) (funext fun a => Fin.ext ?_)
    match a with
    | ⟨0, _⟩ => show win0_0.index t (0 : Fin 2) * 16 + 1 * p.val = r.val; omega
    | ⟨1, _⟩ => show win0_0.index t (1 : Fin 2) * 50257 + 1 * k.val = k.val; omega
  · intro p k r hr
    show V m c main_arg1 (((cfg0.win 1).blk t).view.emb (ix2 p k)) = V m c main_arg1 (ix2 r k)
    refine congrArg (V m c main_arg1) (funext fun a => Fin.ext ?_)
    match a with
    | ⟨0, _⟩ => show win0_1.index t (0 : Fin 2) * 16 + 1 * p.val = r.val; omega
    | ⟨1, _⟩ => show win0_1.index t (1 : Fin 2) * 50257 + 1 * k.val = k.val; omega
  · show win0_2.index t (0 : Fin 2) * 16 + 1 * (j 0).val = t.val * 16 + (j 0).val
    omega

/-- An index of the column is in point t's block iff each coordinate is in the block's range on its axis. -/
theorem mem_blk (t : Fin cfg0.N) (i : S2048x1.Idx) :
    i ∈ ((cfg0.win 2).blk t).view.set ↔ ∀ a : Fin 2, win0_2.index t a * S16x1.size a ≤ (i a).val
      ∧ (i a).val < win0_2.index t a * S16x1.size a + S16x1.size a := by
  show i ∈ ((View.whole main_v0).slice (win0_2.rect t)).set ↔ _
  rw [View.set_slice_whole, Rect.mem_set_unit]
  exact Iff.rfl

/-- Every row of the column is written back by the point row / 16. -/
theorem cover (i : S2048x1.Idx) :
    ∃ t : Fin cfg0.N, (cfg0.win 2).flush t = true ∧ i ∈ ((cfg0.win 2).blk t).view.set := by
  have hN : cfg0.N = 128 := N_0
  have hi0 : (i 0).val < 2048 := idx2_lt0 i
  have hi1 : (i 1).val < 1 := idx2_lt1 i
  obtain ⟨t, ht⟩ : ∃ t : Fin cfg0.N, t.val = (i 0).val / 16 := ⟨⟨(i 0).val / 16, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 16 ≤ (i 0).val ∧ (i 0).val < win0_2.index t (0 : Fin 2) * 16 + 16
    omega
  | ⟨1, _⟩ =>
    show win0_2.index t (1 : Fin 2) * 1 ≤ (i 1).val ∧ (i 1).val < win0_2.index t (1 : Fin 2) * 1 + 1
    omega

/-- THE COLUMN after the region: the row values of the two arguments. -/
theorem final (c : Dev nD) :
    (dats m 0 c).arrAt 2 cfg0.N
      = rowValues (m ((c : Thread nD τ).loc main_arg0)) (m ((c : Thread nD τ).loc main_arg1)) :=
  (dats m 0 c).arrAt_eq_of_cover 2 (rowValues (V m c main_arg0) (V m c main_arg1)) (fun t _ => flushed_eq m c t) cover

/-- The result buffer after the operations that follow the region. -/
theorem tail_value (c : Dev nD) :
    Pipeline.afterTail₀ cfgs (dats m) 0 (V0 m) [hostOps1] c main_v3
      = lossOf (rowValues (m ((c : Thread nD τ).loc main_arg0)) (m ((c : Thread nD τ).loc main_arg1))) := by
  unfold Pipeline.afterTail₀
  show StableHlo.after hostOps1 _ (Proc.devRef .tc main_v3) = _
  after_results
  rw [(Pipeline.withArrays_arr spec0 launch0.win.arr_inj c _ _ 2).trans (final m c)]
  rfl

/-- THE RUN: the kernel's program ends with its result at the loss of the column of row values, its arguments unchanged. -/
theorem run : θ_run defs (onTc (τ := τ) (main (F := Ideal))) ⟨m, fun _ => 0, ρ⟩ fun r => ∀ c : Dev nD,
      r.2.mem ((c.tc : Thread nD τ).loc main_v3)
        = lossOf (rowValues (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 rfl (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.RefTerm.lean ====
/-
  The reference's result, read index by index.

  The reference takes softmax(x) and log_softmax(y) row by row over the whole [2048, 50257] arrays, multiplies them entry by
  entry, sums every entry, negates and divides by 2048.  Read at (r, k), each stage is the matching quantity of row r
  (Proof/RowLaw.lean): the row's maximum (the extra `max` with `-∞` the reference takes changes nothing: the fold already
  starts there), the shifted entry, its exponential, the normaliser, and last the entry `refEntry`; the sum over every
  index is the sum over the rows of the sums over the lanes.
-/
import proofs.«158883_j14809047236868_1_alg».proof.Proof.RefRead
import proofs.«158883_j14809047236868_1_alg».proof.Proof.RowLaw
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RowLoss

/-- Row r of a [2048, 50257] array. -/
def rowOf (X : S2048x50257.Idx → EReal) (r : Fin 2048) : Fin 50257 → EReal := fun k => X (ix2 r k)

/-- The lane axis can be dropped from a [2048, 50257] array. -/
theorem hred : S2048x50257.Reduces [1] S2048 := by decide

/-- Row r with coordinate k inserted on the lane axis is the entry (r, k). -/
theorem lift_row (r : Fin 2048) (k : Fin 50257) : hred.lift (ix1 r) k = ix2 r k :=
  funext fun a => Fin.ext (by match a with | ⟨0, _⟩ => rfl | ⟨1, _⟩ => rfl)

/-- The host's maximum along the lanes, at row r, from `-∞`: the row's maximum. -/
theorem host_max_at (X : S2048x50257.Idx → EReal) (init : S_.Idx → EReal)
    (hinit : init (Shape.Idx.first h_S_) = Ideal.ofBits .f32 0xFF800000#32) (r : Fin 2048) :
    Host.reduce (FloatOps.maximumf (F := Ideal) (φ := .f32)) X init reducesTo_S2048x50257_S2048_d1 h_S_ (ix1 r) = rowMax (rowOf X r) := by
  refine (Host.reduce_eq_fold_single (FloatOps.maximumf (F := Ideal) (φ := .f32)) X init reducesTo_S2048x50257_S2048_d1 hred h_S_ (ix1 r)).trans ?_
  have hf : (X ∘ hred.lift (ix1 r)) = rowOf X r := funext fun k => congrArg X (lift_row r k)
  rw [hf, hinit]
  rfl

/-- Taking the maximum with `-∞` once more changes nothing. -/
theorem max_neg_inf_rowMax {n : ℕ} (a : Fin n → EReal) : max (Ideal.ofBits .f32 0xFF800000#32) (rowMax a) = rowMax a :=
  max_eq_right (by unfold rowMax; rw [Finset.le_fold_max]; exact Or.inl le_rfl)

theorem idx_col_row (r : Fin 2048) (k : Fin 50257) : idx_main_v3 (idx_main_v4 (ix2 r k)) = ix1 r :=
  funext fun a => Fin.ext (by match a with | ⟨0, _⟩ => rfl)
theorem idx_col_row' (r : Fin 2048) (k : Fin 50257) : idx_main_v8 (idx_main_v9 (ix2 r k)) = ix1 r :=
  funext fun a => Fin.ext (by match a with | ⟨0, _⟩ => rfl)
theorem idx_lane (r : Fin 2048) (k : Fin 50257) : idx_main_v7 (ix1 r) k = ix2 r k :=
  funext fun a => Fin.ext (by match a with | ⟨0, _⟩ => rfl | ⟨1, _⟩ => rfl)
theorem cidx_col_row (r : Fin 2048) (k : Fin 50257) : idx_main_call0_v3 (idx_main_call0_v4 (ix2 r k)) = ix1 r :=
  funext fun a => Fin.ext (by match a with | ⟨0, _⟩ => rfl)
theorem cidx_col_row' (r : Fin 2048) (k : Fin 50257) : idx_main_call0_v8 (idx_main_call0_v10 (ix2 r k)) = ix1 r :=
  funext fun a => Fin.ext (by match a with | ⟨0, _⟩ => rfl)
theorem cidx_lane (r : Fin 2048) (k : Fin 50257) : idx_main_call0_v7 (ix1 r) k = ix2 r k :=
  funext fun a => Fin.ext (by match a with | ⟨0, _⟩ => rfl | ⟨1, _⟩ => rfl)

/-! ## softmax of the first argument -/

theorem max_stage (X : S2048x50257.Idx → EReal) (r : Fin 2048) : val_main_v2 (F := Ideal) X (ix1 r) = rowMax (rowOf X r) := by
  rw [val_main_v2_apply, val_main_v1_apply, val_main_cst_0_apply]
  have h0 : val_main_v0 (F := Ideal) X (ix1 r) = rowMax (rowOf X r) := by
    unfold val_main_v0
    exact host_max_at X _ (val_main_cst_apply _) r
  rw [h0]
  exact max_neg_inf_rowMax _

theorem shifted_stage (X : S2048x50257.Idx → EReal) (r : Fin 2048) (k : Fin 50257) :
    val_main_v5 (F := Ideal) X (ix2 r k) = shifted (rowOf X r) k := by
  rw [val_main_v5_apply, val_main_v4_apply, val_main_v3_apply, idx_col_row, max_stage]
  rfl

theorem exp_stage (X : S2048x50257.Idx → EReal) (r : Fin 2048) (k : Fin 50257) :
    val_main_v6 (F := Ideal) X (ix2 r k) = expShifted (rowOf X r) k := by
  rw [val_main_v6_apply, shifted_stage]
  rfl

theorem norm_stage (X : S2048x50257.Idx → EReal) (r : Fin 2048) : val_main_v7 (F := Ideal) X (ix1 r) = normaliser (rowOf X r) := by
  rw [val_main_v7_apply, val_main_cst_1_apply]
  show Ideal.ofBits .f32 0x00000000#32 + _ = _
  rw [Ideal.ofBits_zero_f32, zero_add]
  exact Finset.sum_congr rfl fun k _ => by rw [idx_lane, exp_stage]

theorem softmax_stage (X : S2048x50257.Idx → EReal) (r : Fin 2048) (k : Fin 50257) :
    val_main_v10 (F := Ideal) X (ix2 r k) = Ideal.div (expShifted (rowOf X r) k) (normaliser (rowOf X r)) := by
  rw [val_main_v10_apply, val_main_v9_apply, val_main_v8_apply, idx_col_row', norm_stage, exp_stage]
  rfl

/-! ## log_softmax of the second argument (the called function) -/

theorem cmax_stage (Y : S2048x50257.Idx → EReal) (r : Fin 2048) : val_main_call0_v2 (F := Ideal) Y (ix1 r) = rowMax (rowOf Y r) := by
  rw [val_main_call0_v2_apply, val_main_call0_v1_apply, val_main_call0_cst_0_apply]
  have h0 : val_main_call0_v0 (F := Ideal) Y (ix1 r) = rowMax (rowOf Y r) := by
    unfold val_main_call0_v0
    exact host_max_at Y _ (val_main_call0_cst_apply _) r
  rw [h0]
  exact max_neg_inf_rowMax _

theorem cshifted_stage (Y : S2048x50257.Idx → EReal) (r : Fin 2048) (k : Fin 50257) :
    val_main_call0_v5 (F := Ideal) Y (ix2 r k) = shifted (rowOf Y r) k := by
  rw [val_main_call0_v5_apply, val_main_call0_v4_apply, val_main_call0_v3_apply, cidx_col_row, cmax_stage]
  rfl

theorem cexp_stage (Y : S2048x50257.Idx → EReal) (r : Fin 2048) (k : Fin 50257) :
    val_main_call0_v6 (F := Ideal) Y (ix2 r k) = expShifted (rowOf Y r) k := by
  rw [val_main_call0_v6_apply, cshifted_stage]
  rfl

theorem cnorm_stage (Y : S2048x50257.Idx → EReal) (r : Fin 2048) : val_main_call0_v7 (F := Ideal) Y (ix1 r) = normaliser (rowOf Y r) := by
  rw [val_main_call0_v7_apply, val_main_call0_cst_1_apply]
  show Ideal.ofBits .f32 0x00000000#32 + _ = _
  rw [Ideal.ofBits_zero_f32, zero_add]
  exact Finset.sum_congr rfl fun k _ => by rw [cidx_lane, cexp_stage]

theorem logsoftmax_stage (Y : S2048x50257.Idx → EReal) (r : Fin 2048) (k : Fin 50257) :
    val_main_v11 (F := Ideal) Y (ix2 r k) = shifted (rowOf Y r) k - Ideal.log (normaliser (rowOf Y r)) := by
  rw [val_main_v11_apply, val_main_call0_v10_apply, val_main_call0_v9_apply, val_main_call0_v8_apply, cidx_col_row', cnorm_stage,
    cshifted_stage, Ideal.subf_def, Ideal.hostUnary_log_def]

/-! ## the product, its sum, the sign and the mean -/

theorem entry_stage (X Y : S2048x50257.Idx → EReal) (r : Fin 2048) (k : Fin 50257) :
    val_main_v12 (F := Ideal) X Y (ix2 r k) = refEntry (rowOf X r) (rowOf Y r) k := by
  rw [val_main_v12_apply, softmax_stage, logsoftmax_stage, Ideal.mulf_def]
  rfl

/-- THE REFERENCE'S RESULT: minus the sum over the rows of the sums of the reference's entries, over 2048. -/
theorem result_stage (X Y : S2048x50257.Idx → EReal) (i : S_.Idx) :
    val_main_v15 (F := Ideal) X Y i
      = Ideal.div (-(∑ r : Fin 2048, ∑ k : Fin 50257, refEntry (rowOf X r) (rowOf Y r) k)) (Ideal.ofBits .f32 0x45000000#32) := by
  rw [val_main_v15_apply, val_main_v14_apply, val_main_v13_apply, val_main_cst_2_apply, val_main_cst_3_apply]
  show Ideal.div (-(Ideal.ofBits .f32 0x00000000#32 + ∑ j : S2048x50257.Idx, val_main_v12 (F := Ideal) X Y j)) _ = _
  rw [Ideal.ofBits_zero_f32, zero_add, sum_idx2]
  refine congrArg (fun z : EReal => Ideal.div (-z) (Ideal.ofBits .f32 0x45000000#32)) ?_
  exact Finset.sum_congr rfl fun r _ => Finset.sum_congr rfl fun k _ => entry_stage X Y r k

end Cert.ReferenceIdeal.RefValue

end
-- ==== Proof.Bridge.lean ====
/-
  The two results are one number.

  The kernel's program ends at minus the sum, over the 2048 rows, of the kernel's row values, over 2048; the reference's at
  minus the sum over the rows of the sums of the reference's entries, over 2048.  On finite arguments each row's entries sum
  to that row's kernel value (Proof/RowLaw.lean), so the two agree.
-/
import proofs.«158883_j14809047236868_1_alg».proof.Proof.KernelValue
import proofs.«158883_j14809047236868_1_alg».proof.Proof.RefTerm
import proofs.«158883_j14809047236868_1_alg».proof.Proof.RowLaw
import Idealize.ShloMosaic.Lib.ValueIdx
import Idealize.ShloMosaic.PureOps.Ideal.Laws

noncomputable section

open scoped BigOperators

namespace Cert.Bridge

open Idealize.ShloMosaic Idealize.ShloMosaic.ValueIdx Cert.RowLoss
open Cert.KernelIdeal.ArrayValue (lossOf rowValues)
open Cert.ReferenceIdeal.RefValue (rowOf result_stage)

/-- The column of row values at (r, q) is the kernel's value of row r. -/
theorem rowValues_at (X Y : Cert.KernelIdeal.S2048x50257.Idx → EReal) (r : Fin 2048) (q : Fin 1) :
    rowValues X Y (ix2 r q) = kernelRow (rowOf X r) (rowOf Y r) := rfl

/-- The kernel's result: minus the sum over the rows of the kernel's row values, over 2048. -/
theorem lossOf_at (X Y : Cert.KernelIdeal.S2048x50257.Idx → EReal) (i : Cert.KernelIdeal.S_.Idx) :
    lossOf (rowValues X Y) i
      = Ideal.div (-(∑ r : Fin 2048, kernelRow (rowOf X r) (rowOf Y r))) (Ideal.ofBits .f32 0x45000000#32) := by
  have hsum : Host.reduceAdd (F := Ideal) (rowValues X Y) (constant (F := Ideal) Cert.KernelIdeal.S_ .f32 0x00000000#32)
      Cert.KernelIdeal.Gen.reducesTo_S2048x1_S_d0_1 Cert.KernelIdeal.Gen.h_S_ i
      = Ideal.ofBits .f32 0x00000000#32 + ∑ j : Cert.KernelIdeal.S2048x1.Idx, rowValues X Y j := by
    simp only [Host.reduceAdd, Ideal.hostReduceAdd_def]
    exact Ideal.hostReduceAdd_total Cert.KernelIdeal.Gen.reducesTo_S2048x1_S_d0_1 (fun b => b.elim0) (rowValues X Y) _ i
  show Ideal.div (-(Host.reduceAdd (F := Ideal) (rowValues X Y) (constant (F := Ideal) Cert.KernelIdeal.S_ .f32 0x00000000#32)
      Cert.KernelIdeal.Gen.reducesTo_S2048x1_S_d0_1 Cert.KernelIdeal.Gen.h_S_ i)) (Ideal.ofBits .f32 0x45000000#32) = _
  rw [hsum, Ideal.ofBits_zero_f32, zero_add, sum_idx2]
  refine congrArg (fun z : EReal => Ideal.div (-z) (Ideal.ofBits .f32 0x45000000#32)) ?_
  refine Finset.sum_congr rfl fun r _ => ?_
  rw [Fintype.sum_unique]
  exact rowValues_at X Y r default

/-- THE BRIDGE: on arguments whose every entry is a real the kernel's result is the reference's. -/
theorem loss_eq (X Y : Cert.KernelIdeal.S2048x50257.Idx → EReal) (hX : ∀ i, ∃ r : ℝ, X i = r) (hY : ∀ i, ∃ r : ℝ, Y i = r) :
    lossOf (rowValues X Y) = Cert.ReferenceIdeal.ReadP.val_main_v15 (F := Ideal) X Y := by
  funext i
  rw [lossOf_at, result_stage]
  refine congrArg (fun z : EReal => Ideal.div (-z) (Ideal.ofBits .f32 0x45000000#32)) ?_
  exact Finset.sum_congr rfl fun r _ =>
    (row_law (by decide) (rowOf X r) (rowOf Y r) (fun k => hX _) (fun k => hY _)).symm

end Cert.Bridge

end
-- ==== Proof.lean ====
/-
  The cross-entropy of softmax(x) against log_softmax(y), averaged over 2048 rows of 50257 logits: a Pallas kernel against
  its jnp reference, over the extended reals.

  The kernel never forms the two [2048, 50257] probability arrays.  Per row it takes the two maxima, the two normalisers
  `zx = ∑ exp (x - mx)` and `zy = ∑ exp (y - my)`, and `s = ∑ exp (x - mx) · (y - my)`, and stores `s / zx - log zy`; the host then
  sums the 2048 stored values, negates and divides by 2048.  The reference multiplies softmax(x) by log_softmax(y) entry by
  entry and sums everything.  Row by row, `∑ₖ (eₖ / zx) · (sₖ - log zy) = s / zx - log zy` because `∑ₖ eₖ = zx` is a nonzero
  real: this needs the inputs finite (Proof/RowLaw.lean), which is the precondition (Proof/Finite.lean reads it back).

  The frames of the two kernel programs are the generated ones; the kernel's value is read off its frame run block by block
  and through the operations after the region (Proof/KernelRow.lean, Proof/KernelValue.lean); the reference's value is its
  run read stage by stage (Proof/RefTerm.lean); Proof/Bridge.lean joins them.  The idealization rewrote no operation, so
  `preserves` has nothing to state.
-/
import proofs.«158883_j14809047236868_1_alg».proof.Defs
import proofs.«158883_j14809047236868_1_alg».proof.Proof.Gen.Kernel
import proofs.«158883_j14809047236868_1_alg».proof.Proof.Gen.Kernel.Frame
import proofs.«158883_j14809047236868_1_alg».proof.Proof.Gen.KernelIdeal
import proofs.«158883_j14809047236868_1_alg».proof.Proof.Gen.KernelIdeal.Frame
import proofs.«158883_j14809047236868_1_alg».proof.Proof.Gen.ReferenceIdeal
import proofs.«158883_j14809047236868_1_alg».proof.Proof.Gen.Pre_finite_inputs
import proofs.«158883_j14809047236868_1_alg».proof.Proof.RefRun
import proofs.«158883_j14809047236868_1_alg».proof.Proof.RefRead
import proofs.«158883_j14809047236868_1_alg».proof.Proof.Finite
import proofs.«158883_j14809047236868_1_alg».proof.Proof.KernelValue
import proofs.«158883_j14809047236868_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the two arguments, both finite, the kernel's program and the reference end with the same
    number: the loss of the column of row values. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  obtain ⟨hx, hy⟩ := Cert.FiniteInputs.entries_real _ _ (hpre c)
  exact (Cert.ReferenceIdeal.ReadP.val_main_v15_eq _ _).trans (Cert.Bridge.loss_eq _ _ hx hy).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
